-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x128x64 : Shape := ⟨4, ![1, 64, 128, 64]⟩
abbrev S_ : Shape := ⟨0, ![]⟩

class Facts : Prop where
  bcast_S_S1x64x128x64 : S_.BroadcastsInDim S1x64x128x64 (![] : Fin 0 → Fin S1x64x128x64.rank)
  reducesTo_S1x64x128x64_S_d0_1_2_3 : S1x64x128x64.ReducesTo [0, 1, 2, 3] S_
  h_S_ : 0 < S_.numel

variable [Facts]

def fn {F : FTy → Type} [FloatOps F] (main_arg0 : FVec F S1x64x128x64 .f32) (main_arg1 : FVec F S1x64x128x64 .f32) : IVec S_ 1 :=
  let main_v0 : FVec F S1x64x128x64 .f32 := Host.absf main_arg0
  let main_cst : FVec F S_ .f32 := constant S_ .f32 0x7F800000#32
  let main_v1 : FVec F S1x64x128x64 .f32 := broadcastInDim S1x64x128x64 ![] bcast_S_S1x64x128x64 main_cst
  let main_v2 : IVec S1x64x128x64 1 := cmpf .olt main_v0 main_v1
  let main_c : IVec S_ 1 := constantI S_ 1 1#1
  let main_v3 : IVec S_ 1 := (fun x v => Host.reduce IntOp.andi x v reducesTo_S1x64x128x64_S_d0_1_2_3 h_S_) main_v2 main_c
  let main_v4 : FVec F S1x64x128x64 .f32 := Host.absf main_arg1
  let main_cst_0 : FVec F S_ .f32 := constant S_ .f32 0x7F800000#32
  let main_v5 : FVec F S1x64x128x64 .f32 := broadcastInDim S1x64x128x64 ![] bcast_S_S1x64x128x64 main_cst_0
  let main_v6 : IVec S1x64x128x64 1 := cmpf .olt main_v4 main_v5
  let main_c_1 : IVec S_ 1 := constantI S_ 1 1#1
  let main_v7 : IVec S_ 1 := (fun x v => Host.reduce IntOp.andi x v reducesTo_S1x64x128x64_S_d0_1_2_3 h_S_) main_v6 main_c_1
  let main_v8 : IVec S_ 1 := andi main_v3 main_v7
  main_v8
-- ==== Kernel.lean ====
abbrev S1x64x128x64 : Shape := ⟨4, ![1, 64, 128, 64]⟩
abbrev S64x8192 : Shape := ⟨2, ![64, 8192]⟩
abbrev S8192x64 : Shape := ⟨2, ![8192, 64]⟩
abbrev S1x1 : Shape := ⟨2, ![1, 1]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 10
  | .vmem => 4
  | .smem => 0
  | _ => 0

abbrev bufTy : (tb : Table) → Fin (tcTables nBuf tb) → BufTy
  | .hbm, ⟨0, _⟩ => ⟨S1x64x128x64, .f32⟩
  | .hbm, ⟨1, _⟩ => ⟨S1x64x128x64, .f32⟩
  | .hbm, ⟨2, _⟩ => ⟨S64x8192, .f32⟩
  | .hbm, ⟨3, _⟩ => ⟨S8192x64, .f32⟩
  | .hbm, ⟨4, _⟩ => ⟨S64x8192, .f32⟩
  | .hbm, ⟨5, _⟩ => ⟨S8192x64, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S1x1, .f32⟩
  | .local _ .vmem, ⟨3, _⟩ => ⟨S1x1, .f32⟩
  | _, _ => ⟨S1x64x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c512_i32 : BitVec 32 := 512#32
  let v5 : BitVec 32 := Scalar.muli arg0 c512_i32
  v5
def k0_mult2 (i : grid0.Coords) : BitVec 32 :=
  let arg1 : BitVec 32 := BitVec.ofNat 32 (i 1).val
  let c512_i32_2 : BitVec 32 := 512#32
  let v7 : BitVec 32 := Scalar.muli arg1 c512_i32_2
  v7
def k0_off1 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v9 : Index := Scalar.indexCast v6
  let c0 : Index := 0#32
  ![v9.toNat, 0]
def k0_off2 (i : grid0.Coords) : Fin 2 → Nat :=
  let arg1 : BitVec 32 := BitVec.ofNat 32 (i 1).val
  let c512_i32_2 : BitVec 32 := 512#32
  let v7 : BitVec 32 := Scalar.muli arg1 c512_i32_2
  let v8 : BitVec 32 := v7
  let v12 : Index := Scalar.indexCast v8
  let c0_3 : Index := 0#32
  ![v12.toNat, 0]
def k0_cond2 (i : grid0.Coords) : BitVec 1 :=
  let arg0 : BitVec 32 := BitVec.ofNat 32 (i 0).val
  let c15_i32 : BitVec 32 := 15#32
  let v57 : BitVec 1 := Scalar.cmpi .eq arg0 c15_i32
  let arg1 : BitVec 32 := BitVec.ofNat 32 (i 1).val
  let c15_i32_22 : BitVec 32 := 15#32
  let v58 : BitVec 1 := Scalar.cmpi .eq arg1 c15_i32_22
  let v59 : BitVec 1 := Scalar.andi v57 v58
  let v60 : BitVec 32 := Scalar.extui v59
  let c0_i32_23 : BitVec 32 := 0#32
  let v61 : BitVec 1 := Scalar.cmpi .ne v60 c0_i32_23
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  shapeCasts_S1x64x128x64_S64x8192 : S1x64x128x64.ShapeCasts S64x8192
  transposes_S64x8192_S8192x64_1_0 : S64x8192.Transposes [1, 0] S8192x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S512x64 : 0 < S512x64.numel
  shapeCasts_S512x64_S512x64 : S512x64.ShapeCasts S512x64
  transposes_S512x64_p1_0_S64x512 : S512x64.Transposes [1, 0] S64x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S512x64_S64x512_S512x512_1_0_0_1_n_n_wf : DotDims.WF S512x64 S64x512 S512x512 [1] [0] [0] [1] [] []
  hrank0 : 0 < grid0.rank
  k0_mult1_dvd : ∀ i : grid0.Coords, 8 ∣ (k0_mult1 i).toNat
  k0_mult2_dvd : ∀ i : grid0.Coords, 8 ∣ (k0_mult2 i).toNat
  k0_off1_inb : ∀ i : grid0.Coords, ∀ a, (k0_off1 i) a + S512x64.size a ≤ S8192x64.size a
  k0_off2_inb : ∀ i : grid0.Coords, ∀ a, (k0_off2 i) a + S512x64.size a ≤ S8192x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_v1) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1x64x128x64 : Shape := ⟨4, ![1, 64, 128, 64]⟩
abbrev S64x8192 : Shape := ⟨2, ![64, 8192]⟩
abbrev S8192x64 : Shape := ⟨2, ![8192, 64]⟩
abbrev S8192x8192 : Shape := ⟨2, ![8192, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64x128x64, .f32⟩
  | .hbm, ⟨1, _⟩ => ⟨S1x64x128x64, .f32⟩
  | .hbm, ⟨2, _⟩ => ⟨S64x8192, .f32⟩
  | .hbm, ⟨3, _⟩ => ⟨S8192x64, .f32⟩
  | .hbm, ⟨4, _⟩ => ⟨S64x8192, .f32⟩
  | .hbm, ⟨5, _⟩ => ⟨S8192x64, .f32⟩
  | .hbm, ⟨6, _⟩ => ⟨S64x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S64x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S64x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S1x64x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S1x64x128x64_S64x8192 : S1x64x128x64.ShapeCasts S64x8192
  transposes_S64x8192_S8192x64_1_0 : S64x8192.Transposes [1, 0] S8192x64
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.GramSpec.lean ====
/-
  The degree-2 polynomial-kernel loss, over the reals.

  A [1, 64, 128, 64] array is read as a feature matrix of 8192 rows (the positions p = 64·h + w) and 64 columns
  (the channels): entry (p, k) is the array at (0, k, p / 64, p % 64). For two such matrices f and s the loss is the
  sum over all pairs of rows (p, q) of  ⟨f p, f q⟩² + ⟨s p, s q⟩² − 2·⟨f p, s q⟩².

  The same number is reached tile by tile: the 8192 rows are sixteen tiles of 512; tile pair (i, j) contributes the
  three sums of squared inner products over its 512 × 512 row pairs, and the 256 tile pairs are visited in the order
  t ↦ (t / 16, t % 16), their contributions accumulated from zero.
-/
import Idealize.ShloMosaic.Lib.ValueIdx
import Idealize.ShloMosaic.PureOps.Ideal

noncomputable section

open scoped BigOperators

namespace Cert.Gram

open Idealize.ShloMosaic Idealize.ShloMosaic.ValueIdx

/-- Row r of row tile i. -/
def row (i : Fin 16) (r : Fin 512) : Fin 8192 := ⟨512 * i.val + r.val, by have := i.isLt; have := r.isLt; omega⟩

/-- Entry (p, k) of the feature matrix of a [1, 64, 128, 64] array, as an extended real. -/
def featE (x : FVec Ideal ⟨4, ![1, 64, 128, 64]⟩ .f32) (p : Fin 8192) (k : Fin 64) : EReal :=
  x (ix4 (0 : Fin 1) k (⟨p.val / 64, by have := p.isLt; omega⟩ : Fin 128) (⟨p.val % 64, by omega⟩ : Fin 64))

/-- The same entry as a real number (its value when the entry is finite). -/
def featR (x : FVec Ideal ⟨4, ![1, 64, 128, 64]⟩ .f32) (p : Fin 8192) (k : Fin 64) : ℝ := (featE x p k).toReal

/-- The inner product of row p of u with row q of v. -/
def dotR (u v : Fin 8192 → Fin 64 → ℝ) (p q : Fin 8192) : ℝ := ∑ k : Fin 64, u p k * v q k

/-- The sum of the squared inner products over the row pairs of tile pair (i, j). -/
def sqsum (u v : Fin 8192 → Fin 64 → ℝ) (i j : Fin 16) : ℝ :=
  ∑ r : Fin 512, ∑ c : Fin 512, dotR u v (row i r) (row j c) * dotR u v (row i r) (row j c)

/-- Tile pair (i, j)'s contribution to the loss. -/
def tileR (f s : Fin 8192 → Fin 64 → ℝ) (i j : Fin 16) : ℝ := (sqsum f f i j + sqsum s s i j) - 2 * sqsum f s i j

/-- The contribution of the t-th tile pair in visiting order. -/
def pointR (f s : Fin 8192 → Fin 64 → ℝ) (t : ℕ) : ℝ :=
  tileR f s ⟨t / 16 % 16, Nat.mod_lt _ (by decide)⟩ ⟨t % 16, Nat.mod_lt _ (by decide)⟩

/-- The running total after tile pairs 0 … n. -/
def accR (f s : Fin 8192 → Fin 64 → ℝ) (n : ℕ) : ℝ := ∑ t ∈ Finset.range (n + 1), pointR f s t

/-- Row pair (p, q)'s term of the loss. -/
def termR (f s : Fin 8192 → Fin 64 → ℝ) (p q : Fin 8192) : ℝ :=
  (dotR f f p q * dotR f f p q + dotR s s p q * dotR s s p q) - 2 * (dotR f s p q * dotR f s p q)

/-- The loss before normalisation: the sum over all row pairs. -/
def lossR (f s : Fin 8192 → Fin 64 → ℝ) : ℝ := ∑ p : Fin 8192, ∑ q : Fin 8192, termR f s p q

end Cert.Gram

end
-- ==== Proof.GramAlgebra.lean ====
/-
  The tile-by-tile total is the loss: summing the contributions of the 256 tile pairs, visited in the order
  t ↦ (t / 16, t % 16), gives the sum over all 8192 × 8192 row pairs, because every row is row r of exactly one
  tile i (p = 512·i + r) and each tile pair's three sums of squares combine term by term.
-/
import proofs.«151315_j83365315215382_1_alg».proof.Proof.GramSpec
import Mathlib.Algebra.BigOperators.Fin
import Mathlib.Algebra.BigOperators.Ring.Finset
import Mathlib.Logic.Equiv.Fin.Basic

noncomputable section

open scoped BigOperators

namespace Cert.Gram

/-- Every row p is row p % 512 of tile p / 512, and of no other: the rows are the pairs (tile, row in the tile). -/
private def rowEquiv : Fin 16 × Fin 512 ≃ Fin 8192 where
  toFun x := row x.1 x.2
  invFun p := (⟨p.val / 512, by have := p.isLt; omega⟩, ⟨p.val % 512, Nat.mod_lt _ (by norm_num)⟩)
  left_inv := by
    rintro ⟨i, r⟩
    have hi := i.isLt
    have hr := r.isLt
    refine Prod.ext (Fin.ext ?_) (Fin.ext ?_)
    · show (512 * i.val + r.val) / 512 = i.val
      omega
    · show (512 * i.val + r.val) % 512 = r.val
      omega
  right_inv := by
    intro p
    refine Fin.ext ?_
    show 512 * (p.val / 512) + p.val % 512 = p.val
    omega

/-- A sum over the 8192 rows is the sum over the sixteen tiles of the sums over the 512 rows of each tile. -/
private theorem sum_rows (g : Fin 8192 → ℝ) :
    ∑ p : Fin 8192, g p = ∑ i : Fin 16, ∑ r : Fin 512, g (row i r) := by
  calc ∑ p : Fin 8192, g p = ∑ x : Fin 16 × Fin 512, g (rowEquiv x) := (Equiv.sum_comp rowEquiv g).symm
    _ = ∑ x : Fin 16 × Fin 512, g (row x.1 x.2) := rfl
    _ = ∑ i : Fin 16, ∑ r : Fin 512, g (row i r) := Fintype.sum_prod_type' (fun i r => g (row i r))

/-- The visiting order t ↦ (t / 16, t % 16) lists every tile pair exactly once. -/
private def tileEquiv : Fin 16 × Fin 16 ≃ Fin 256 where
  toFun x := ⟨16 * x.1.val + x.2.val, by have := x.1.isLt; have := x.2.isLt; omega⟩
  invFun t := (⟨t.val / 16 % 16, Nat.mod_lt _ (by norm_num)⟩, ⟨t.val % 16, Nat.mod_lt _ (by norm_num)⟩)
  left_inv := by
    rintro ⟨i, j⟩
    have hi := i.isLt
    have hj := j.isLt
    refine Prod.ext (Fin.ext ?_) (Fin.ext ?_)
    · show (16 * i.val + j.val) / 16 % 16 = i.val
      omega
    · show (16 * i.val + j.val) % 16 = j.val
      omega
  right_inv := by
    intro t
    have ht := t.isLt
    refine Fin.ext ?_
    show 16 * (t.val / 16 % 16) + t.val % 16 = t.val
    omega

/-- The total over the 256 visits is the total over all tile pairs. -/
private theorem accR_tiles (f s : Fin 8192 → Fin 64 → ℝ) :
    accR f s 255 = ∑ i : Fin 16, ∑ j : Fin 16, tileR f s i j := by
  calc accR f s 255 = ∑ t : Fin 256, pointR f s t.val := Finset.sum_range (fun t => pointR f s t)
    _ = ∑ t : Fin 256, tileR f s (tileEquiv.symm t).1 (tileEquiv.symm t).2 := rfl
    _ = ∑ x : Fin 16 × Fin 16, tileR f s x.1 x.2 :=
        Equiv.sum_comp tileEquiv.symm (fun x : Fin 16 × Fin 16 => tileR f s x.1 x.2)
    _ = ∑ i : Fin 16, ∑ j : Fin 16, tileR f s i j := Fintype.sum_prod_type' (fun i j => tileR f s i j)

/-- A tile pair's three sums of squares combine row pair by row pair. -/
private theorem tileR_terms (f s : Fin 8192 → Fin 64 → ℝ) (i j : Fin 16) :
    tileR f s i j = ∑ r : Fin 512, ∑ c : Fin 512, termR f s (row i r) (row j c) := by
  unfold tileR sqsum termR
  simp only [Finset.mul_sum, ← Finset.sum_add_distrib, ← Finset.sum_sub_distrib]

theorem accR_last (f s : Fin 8192 → Fin 64 → ℝ) : accR f s 255 = lossR f s := by
  rw [accR_tiles]
  unfold lossR
  rw [sum_rows (fun p => ∑ q : Fin 8192, termR f s p q)]
  refine Finset.sum_congr rfl (fun i _ => ?_)
  calc ∑ j : Fin 16, tileR f s i j
      = ∑ j : Fin 16, ∑ r : Fin 512, ∑ c : Fin 512, termR f s (row i r) (row j c) :=
        Finset.sum_congr rfl (fun j _ => tileR_terms f s i j)
    _ = ∑ r : Fin 512, ∑ j : Fin 16, ∑ c : Fin 512, termR f s (row i r) (row j c) := Finset.sum_comm
    _ = ∑ r : Fin 512, ∑ q : Fin 8192, termR f s (row i r) q :=
        Finset.sum_congr rfl (fun r _ => (sum_rows (fun q => termR f s (row i r) q)).symm)

end Cert.Gram

end
-- ==== Proof.Finite.lean ====
/-
  Under the precondition every entry of both argument arrays is a real number.
-/
import proofs.«151315_j83365315215382_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.Finite

open Idealize.ShloMosaic

/-- The shape of rank zero has exactly one index. -/
private instance subsingleton_idx0 : Subsingleton Cert.Pre_finite_inputs.S_.Idx :=
  ⟨fun _ _ => funext fun d => d.elim0⟩

/-- An extended real whose absolute value `max x (-x)` lies strictly below `⊤` is a real number:
    at `⊤` the maximum is `⊤`, at `⊥` its negation `⊤` is, and neither is below `⊤`. -/
private theorem real_of_abs_lt_top (x : EReal) (h : max x (-x) < ⊤) : ∃ r : ℝ, x = (r : EReal) := by
  induction x using EReal.rec with
  | bot => simp at h
  | coe r => exact ⟨r, rfl⟩
  | top => simp at h

/-- One entry: the comparison `|x| < +∞` answering true says that `x` is a real number. The word
    `0x7F800000` denotes `⊤`, the absolute value is `max x (-x)`, and the ordered "less than" is `<` on the
    extended reals. -/
private theorem real_of_cmp (x : Ideal .f32)
    (h : FloatOps.cmpf .olt (FloatOps.hostAbsf x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  change Ideal.cmp .olt (max (x : EReal) (-(x : EReal))) ⊤ = 1#1 at h
  unfold Ideal.cmp at h
  refine real_of_abs_lt_top x ?_
  by_contra hn
  simp [hn] at h

/-- One argument array: when the conjunction over all indices of `|x i| < +∞` is true, every entry is real. -/
private theorem real_of_all [Cert.Pre_finite_inputs.Facts]
    (x : FVec Ideal Cert.Pre_finite_inputs.S1x64x128x64 .f32)
    (h : Host.reduce IntOp.andi
        (cmpf .olt (Host.absf x)
          (broadcastInDim Cert.Pre_finite_inputs.S1x64x128x64 ![]
            Cert.Pre_finite_inputs.Facts.bcast_S_S1x64x128x64
            (constant (F := Ideal) Cert.Pre_finite_inputs.S_ .f32 0x7F800000#32)))
        (constantI Cert.Pre_finite_inputs.S_ 1 1#1)
        Cert.Pre_finite_inputs.Facts.reducesTo_S1x64x128x64_S_d0_1_2_3
        Cert.Pre_finite_inputs.Facts.h_S_ ValueIdx.ix0 = 1#1)
    (i : Cert.Pre_finite_inputs.S1x64x128x64.Idx) : ∃ r : ℝ, x i = (r : EReal) := by
  have hi := Host.reduce_andi_all _ _ _ _ _ h i
  rw [ValueIdx.cmpf_apply,
    broadcastInDim_apply _ _ _ i ValueIdx.ix0 (fun a => a.elim0), ValueIdx.constant_apply] at hi
  exact real_of_cmp (x i) hi

theorem real_of_pre (x0 x1 : FVec Ideal Cert.Pre_finite_inputs.S1x64x128x64 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  unfold Cert.Pre_finite_inputs.fn at h0
  dsimp only at h0
  obtain ⟨ha, hb⟩ := IntOp.andi_eq_one.1 h0
  exact ⟨real_of_all x0 ha, real_of_all x1 hb⟩

end Cert.Finite

end
-- ==== Proof.ERealSum.lean ====
/-
  The inclusion of the reals in the extended reals commutes with finite sums.
-/
import Mathlib.Data.EReal.Basic
import Mathlib.Algebra.BigOperators.Group.Finset.Basic

open scoped BigOperators

namespace Cert.Gram

/-- A finite sum of reals, read as an extended real, is the sum of the terms read as extended reals. -/
theorem coe_sum {ι : Type*} (t : Finset ι) (g : ι → ℝ) :
    ((∑ i ∈ t, g i : ℝ) : EReal) = ∑ i ∈ t, ((g i : ℝ) : EReal) := by
  classical
  induction t using Finset.induction_on with
  | empty => simp
  | insert a t ha ih => rw [Finset.sum_insert ha, Finset.sum_insert ha, EReal.coe_add, ih]

end Cert.Gram
-- ==== Proof.Consts.lean ====
/-
  The float literals the two programs spell, as the extended reals their bit patterns denote:
  2, 8192 = 2^13, 4096 = 2^12, and 2^-38 = 1 / (8192 · 8192 · 4096).
-/
import Idealize.ShloMosaic.PureOps.Ideal

noncomputable section

namespace Cert.Consts

open Idealize.ShloMosaic

theorem ofBits_two : Ideal.ofBits .f32 0x40000000#32 = ((2 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_inv : Ideal.ofBits .f32 0x2C800000#32 = ((1 / 274877906944 : ℝ) : EReal) := by
  simp [Ideal.ofBits, Ideal.ieee, -EReal.coe_mul]; norm_num

end Cert.Consts

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.RefValue.lean ====
/-
  The reference's result, for arrays of real entries, is the loss divided by 8192, by 8192 and by 4096.
-/
import proofs.«151315_j83365315215382_1_alg».proof.Proof.Gen.ReferenceIdeal.Read
import proofs.«151315_j83365315215382_1_alg».proof.Proof.GramSpec
import proofs.«151315_j83365315215382_1_alg».proof.Proof.ERealSum
import proofs.«151315_j83365315215382_1_alg».proof.Proof.Consts
import proofs.«151315_j83365315215382_1_alg».proof.Proof.LibPlainDot

noncomputable section

open scoped BigOperators

namespace Cert.RefValue

open Idealize.ShloMosaic Idealize.ShloMosaic.ValueIdx Cert.ReferenceIdeal Cert.ReferenceIdeal.Gen

open Cert.ReferenceIdeal.Read Cert.Gram

/-- The array type of the two inputs. -/
private abbrev Arr := (⟨S1x64x128x64, .f32⟩ : BufTy).Contents (Elt Ideal)

/-- Reading the reshaped and transposed array at (p, k) lands on the array's entry (0, k, p / 64, p % 64). -/
private theorem idx_feat (p : Fin 8192) (k : Fin 64) :
    idx_main_v0 (idx_main_v1 (ix2 p k))
      = ix4 (0 : Fin 1) k (⟨p.val / 64, by have := p.isLt; omega⟩ : Fin 128) (⟨p.val % 64, by omega⟩ : Fin 64) := by
  have hp := p.isLt
  have hk := k.isLt
  funext a
  match a with
  | ⟨0, _⟩ => rfl
  | ⟨1, _⟩ => exact Fin.ext (by show (k.val * 8192 + p.val) / 8192 % 64 = k.val; omega)
  | ⟨2, _⟩ => exact Fin.ext (by show (k.val * 8192 + p.val) / 64 % 128 = p.val / 64; omega)
  | ⟨3, _⟩ => exact Fin.ext (by show (k.val * 8192 + p.val) % 64 = p.val % 64; omega)

/-- An entry of the feature matrix of a real array is the real feature, read as an extended real. -/
private theorem featE_eq (x : Arr) (h : ∀ i, ∃ r : ℝ, x i = (r : EReal)) (p : Fin 8192) (k : Fin 64) :
    featE x p k = ((featR x p k : ℝ) : EReal) := by
  unfold featR featE
  obtain ⟨r, hr⟩ := h (ix4 (0 : Fin 1) k (⟨p.val / 64, by have := p.isLt; omega⟩ : Fin 128) (⟨p.val % 64, by omega⟩ : Fin 64))
  rw [hr, EReal.toReal_coe]

private theorem feat1 (x : Arr) (h : ∀ i, ∃ r : ℝ, x i = (r : EReal)) (p : Fin 8192) (k : Fin 64) :
    val_main_v1 (F := Ideal) x (ix2 p k) = ((featR x p k : ℝ) : EReal) := by
  rw [val_main_v1_apply, val_main_v0_apply, idx_feat, ← featE_eq x h p k]
  rfl

private theorem feat3 (x : Arr) (h : ∀ i, ∃ r : ℝ, x i = (r : EReal)) (p : Fin 8192) (k : Fin 64) :
    val_main_v3 (F := Ideal) x (ix2 p k) = ((featR x p k : ℝ) : EReal) := by
  rw [val_main_v3_apply, val_main_v2_apply, ← featE_eq x h p k]
  exact congrArg x (idx_feat p k)

/-- The second operands of the three products are the feature matrices transposed. -/
private theorem featT4 (x : Arr) (h : ∀ i, ∃ r : ℝ, x i = (r : EReal)) (k : Fin 64) (q : Fin 8192) :
    val_main_v4 (F := Ideal) x (ix2 k q) = ((featR x q k : ℝ) : EReal) := by
  rw [val_main_v4_apply, ← feat1 x h q k]
  refine congrArg _ (funext fun a => ?_)
  match a with
  | ⟨0, _⟩ => rfl
  | ⟨1, _⟩ => rfl

private theorem featT9 (x : Arr) (h : ∀ i, ∃ r : ℝ, x i = (r : EReal)) (k : Fin 64) (q : Fin 8192) :
    val_main_v9 (F := Ideal) x (ix2 k q) = ((featR x q k : ℝ) : EReal) := by
  rw [val_main_v9_apply, ← feat3 x h q k]
  refine congrArg _ (funext fun a => ?_)
  match a with
  | ⟨0, _⟩ => rfl
  | ⟨1, _⟩ => rfl

private theorem featT15 (x : Arr) (h : ∀ i, ∃ r : ℝ, x i = (r : EReal)) (k : Fin 64) (q : Fin 8192) :
    val_main_v15 (F := Ideal) x (ix2 k q) = ((featR x q k : ℝ) : EReal) := by
  rw [val_main_v15_apply, ← feat3 x h q k]
  refine congrArg _ (funext fun a => ?_)
  match a with
  | ⟨0, _⟩ => rfl
  | ⟨1, _⟩ => rfl

/-- A sum of products of reals read as extended reals is the real inner product read as an extended real. -/
private theorem coe_dot (u v : Fin 8192 → Fin 64 → ℝ) (p q : Fin 8192) (a b : Fin 64 → EReal)
    (ha : ∀ k, a k = ((u p k : ℝ) : EReal)) (hb : ∀ k, b k = ((v q k : ℝ) : EReal)) :
    ∑ k : Fin 64, a k * b k = ((dotR u v p q : ℝ) : EReal) := by
  unfold dotR
  rw [coe_sum]
  refine Finset.sum_congr rfl fun k _ => ?_
  rw [ha, hb, EReal.coe_mul]

private theorem lidx_eq (p q : Fin 8192) (k : Fin 64) : lidx_main_v5 (ix2 p q) k = ix2 p k := by
  funext a
  match a with
  | ⟨0, _⟩ => rfl
  | ⟨1, _⟩ => rfl

private theorem ridx_eq (p q : Fin 8192) (k : Fin 64) : ridx_main_v5 (ix2 p q) k = ix2 k q := by
  funext a
  match a with
  | ⟨0, _⟩ => rfl
  | ⟨1, _⟩ => rfl

/-- The three Gram matrices, entry by entry, are the real inner products of the feature rows. -/
private theorem gram5 (x0 : Arr) (h0 : ∀ i, ∃ r : ℝ, x0 i = (r : EReal)) (p q : Fin 8192) :
    val_main_v5 (F := Ideal) x0 (ix2 p q) = ((dotR (featR x0) (featR x0) p q : ℝ) : EReal) := by
  rw [val_main_v5_apply]
  refine coe_dot _ _ p q _ _ (fun k => ?_) (fun k => ?_)
  · exact (congrArg _ (lidx_eq p q k)).trans (feat1 x0 h0 p k)
  · exact (congrArg _ (ridx_eq p q k)).trans (featT4 x0 h0 k q)

private theorem gram10 (x1 : Arr) (h1 : ∀ i, ∃ r : ℝ, x1 i = (r : EReal)) (p q : Fin 8192) :
    val_main_v10 (F := Ideal) x1 (ix2 p q) = ((dotR (featR x1) (featR x1) p q : ℝ) : EReal) := by
  rw [val_main_v10_apply]
  refine coe_dot _ _ p q _ _ (fun k => ?_) (fun k => ?_)
  · exact (congrArg _ (lidx_eq p q k)).trans (feat3 x1 h1 p k)
  · exact (congrArg _ (ridx_eq p q k)).trans (featT9 x1 h1 k q)

private theorem gram16 (x0 x1 : Arr) (h0 : ∀ i, ∃ r : ℝ, x0 i = (r : EReal)) (h1 : ∀ i, ∃ r : ℝ, x1 i = (r : EReal))
    (p q : Fin 8192) :
    val_main_v16 (F := Ideal) x0 x1 (ix2 p q) = ((dotR (featR x0) (featR x1) p q : ℝ) : EReal) := by
  rw [val_main_v16_apply]
  refine coe_dot _ _ p q _ _ (fun k => ?_) (fun k => ?_)
  · exact (congrArg _ (lidx_eq p q k)).trans (feat1 x0 h0 p k)
  · exact (congrArg _ (ridx_eq p q k)).trans (featT15 x1 h1 k q)

/-- The three zero arrays. -/
private theorem zero6 (i : S8192x8192.Idx) : val_main_v6 (F := Ideal) i = 0 := by
  rw [val_main_v6_apply, val_main_cst_apply]; exact Ideal.ofBits_zero_f32

private theorem zero11 (i : S8192x8192.Idx) : val_main_v11 (F := Ideal) i = 0 := by
  rw [val_main_v11_apply, val_main_cst_0_apply]; exact Ideal.ofBits_zero_f32

private theorem zero17 (i : S8192x8192.Idx) : val_main_v17 (F := Ideal) i = 0 := by
  rw [val_main_v17_apply, val_main_cst_1_apply]; exact Ideal.ofBits_zero_f32

/-- The array of twos. -/
private theorem two20 (i : S8192x8192.Idx) : val_main_v20 (F := Ideal) i = ((2 : ℝ) : EReal) := by
  rw [val_main_v20_apply, val_main_cst_2_apply]; exact Cert.Consts.ofBits_two

/-- The summand at the row pair (p, q) is that pair's term of the loss. -/
private theorem term22 (x0 x1 : Arr) (h0 : ∀ i, ∃ r : ℝ, x0 i = (r : EReal)) (h1 : ∀ i, ∃ r : ℝ, x1 i = (r : EReal))
    (p q : Fin 8192) :
    val_main_v22 (F := Ideal) x0 x1 (ix2 p q) = ((termR (featR x0) (featR x1) p q : ℝ) : EReal) := by
  rw [val_main_v22_apply, val_main_v14_apply, val_main_v21_apply, val_main_v8_apply, val_main_v13_apply,
    val_main_v19_apply, val_main_v7_apply, val_main_v12_apply, val_main_v18_apply, zero6, zero11, zero17, two20,
    gram5 x0 h0, gram10 x1 h1, gram16 x0 x1 h0 h1]
  simp only [Ideal.addf_def, Ideal.subf_def, Ideal.mulf_def, add_zero]
  unfold termR
  rw [EReal.coe_sub, EReal.coe_add, EReal.coe_mul, EReal.coe_mul, EReal.coe_mul, EReal.coe_mul]

/-- The sum over all row pairs is the loss. -/
private theorem total23 (x0 x1 : Arr) (h0 : ∀ i, ∃ r : ℝ, x0 i = (r : EReal)) (h1 : ∀ i, ∃ r : ℝ, x1 i = (r : EReal))
    (i : S_.Idx) :
    val_main_v23 (F := Ideal) x0 x1 i = ((lossR (featR x0) (featR x1) : ℝ) : EReal) := by
  rw [val_main_v23_apply, val_main_cst_3_apply]
  rw [show FloatOps.ofBits (F := Ideal) .f32 0x00000000#32 = (0 : EReal) from Ideal.ofBits_zero_f32, zero_add, sum_idx2]
  unfold lossR
  rw [coe_sum]
  refine Finset.sum_congr rfl fun p _ => ?_
  rw [coe_sum]
  refine Finset.sum_congr rfl fun q _ => ?_
  exact term22 x0 x1 h0 h1 p q

/-- A real divided by a nonzero real, as extended reals, is the real quotient. -/
private theorem div_real (a c : ℝ) (hc : c ≠ 0) : Ideal.div (a : EReal) (c : EReal) = ((a / c : ℝ) : EReal) := by
  rw [Ideal.div_coe hc, ← EReal.coe_mul, mul_one_div]

theorem ref_value (x0 x1 : (⟨S1x64x128x64, .f32⟩ : BufTy).Contents (Elt Ideal))
    (h0 : ∀ i, ∃ r : ℝ, x0 i = (r : EReal)) (h1 : ∀ i, ∃ r : ℝ, x1 i = (r : EReal)) :
    Cert.ReferenceIdeal.Read.val_main_v26 (F := Ideal) x0 x1
      = fun _ => ((Cert.Gram.lossR (Cert.Gram.featR x0) (Cert.Gram.featR x1) / 8192 / 8192 / 4096 : ℝ) : EReal) := by
  funext i
  rw [val_main_v26_apply, val_main_v25_apply, val_main_v24_apply, total23 x0 x1 h0 h1,
    val_main_cst_4_apply, val_main_cst_5_apply, val_main_cst_6_apply]
  simp only [Ideal.hostDivf_def, Ideal.ofBits_def, Cert.Consts.ofBits_8192, Cert.Consts.ofBits_4096]
  rw [div_real _ _ (by norm_num), div_real _ _ (by norm_num), div_real _ _ (by norm_num)]

end Cert.RefValue

end
-- ==== Proof.KernelPieces.lean ====
/-
  What one grid point leaves in the accumulator and in the result block, read off the body's stores.

  At grid point (i, j) the body loads rows 512·i … 512·i + 511 and rows 512·j … 512·j + 511 of each of the two
  8192 × 64 feature matrices, forms the three 512 × 512 tiles of inner products, squares them, sums each over both
  axes, and adds (sum₁ + sum₂ − 2·sum₃) to the 1 × 1 accumulator. The first point adds to the zero it has just stored;
  every other point adds to what the point before left; the last point also copies the accumulator to the result block.
-/
import proofs.«151315_j83365315215382_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KV

open Cert.KernelIdeal Cert.KernelIdeal.Gen

variable {F : FTy → Type} [FloatOps F]

theorem hz : (![0, 0] : Fin 2 → Nat) = fun _ => 0 := funext fun a => by fin_cases a <;> rfl

/-- The 512 rows of a feature matrix that the point's first grid coordinate selects. -/
abbrev rowsI (i : grid0.Coords) (x : Vec F S8192x64 .f32) : Vec F S512x64 .f32 :=
  View.ld x (Rect.unit (s := S8192x64) (k0_off1 i) S512x64.size (k0_off1_inb i))

/-- The 512 rows that its second grid coordinate selects. -/
abbrev rowsJ (i : grid0.Coords) (x : Vec F S8192x64 .f32) : Vec F S512x64 .f32 :=
  View.ld x (Rect.unit (s := S8192x64) (k0_off2 i) S512x64.size (k0_off2_inb i))

/-- One point's update of the accumulator: from the value `a` held before to `a` plus the tile pair's contribution. -/
def step (i : grid0.Coords) (x0 x1 : Vec F S8192x64 .f32) (a : Vec F S1x1 .f32) : Vec F S1x1 .f32 :=
  k0_pay1 (k0_pay5 (rowsI i x1) (rowsJ i x1)) (k0_pay6 (rowsI i x0) (rowsJ i x1)) (k0_pay7 (rowsI i x0) (rowsJ i x0)) a

/-- The first point: the accumulator is zeroed, read back, and updated. -/
theorem sout_A (c : Dev nD) (i : grid0.Coords) (a2 : Memref sig .tc .vmem S8192x64 .f32) (h2 : a2.IsWhole) (a3 : Memref sig .tc .vmem S8192x64 .f32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i) (x0 x1 : Vec F S8192x64 .f32) :
    sout0_A_0 c i a2 h2 a3 h3 a4 h4 a5 h5 hc0 hc1 x0 x1 = step i x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz]
  simp only [View.readAt_eq_ld, h2.read_unread, h3.read_unread, View.readCov_unit_zero (S := S1x1) _ hz]
  rfl

/-- A middle point: the accumulator holds what the point before left, and is updated. -/
theorem sout_B (c : Dev nD) (i : grid0.Coords) (a2 : Memref sig .tc .vmem S8192x64 .f32) (h2 : a2.IsWhole) (a3 : Memref sig .tc .vmem S8192x64 .f32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i) (x0 x1 : Vec F S8192x64 .f32) (xs0 : Vec F S1x1 .f32) :
    sout0_B_0 c i a2 h2 a3 h3 a4 h4 a5 h5 hc0 hc1 x0 x1 xs0 = step i x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S1x1) hz]
  rfl

/-- The last point updates the accumulator the same way … -/
theorem sout_C (c : Dev nD) (i : grid0.Coords) (a2 : Memref sig .tc .vmem S8192x64 .f32) (h2 : a2.IsWhole) (a3 : Memref sig .tc .vmem S8192x64 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i) (x0 x1 : Vec F S8192x64 .f32) (xs0 : Vec F S1x1 .f32) :
    sout0_C_0 c i a2 h2 a3 h3 a4 h4 a5 h5 hc0 hc1 x0 x1 xs0 = step i x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1x1) hz]
  rfl

/-- … and stores the updated accumulator, read back, into the result block. -/
theorem out_C (c : Dev nD) (i : grid0.Coords) (a2 : Memref sig .tc .vmem S8192x64 .f32) (h2 : a2.IsWhole) (a3 : Memref sig .tc .vmem S8192x64 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i) (x0 x1 : Vec F S8192x64 .f32) (xs0 : Vec F S1x1 .f32) :
    out0_C_2 c i a2 h2 a3 h3 a4 h4 a5 h5 hc0 hc1 x0 x1 xs0 = step i x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1x1) _ hz]
  simp only [View.readAt_eq_ld, h2.read_unread, h3.read_unread, h5.read_unread, View.ld_unit_zero (S := S1x1) hz]
  rfl

end Cert.KernelIdeal.KV

end
-- ==== Proof.KernelTile.lean ====
/-
  One grid point's arithmetic, for blocks of real entries: the value the body stores into the accumulator is what the
  accumulator held plus the tile pair's contribution, the two sums of squared inner products of like rows minus twice
  the sum for unlike rows.
-/
import proofs.«151315_j83365315215382_1_alg».proof.Proof.Gen.KernelIdeal.Skeleton
import proofs.«151315_j83365315215382_1_alg».proof.Proof.GramSpec
import proofs.«151315_j83365315215382_1_alg».proof.Proof.ERealSum
import proofs.«151315_j83365315215382_1_alg».proof.Proof.Consts
import proofs.«151315_j83365315215382_1_alg».proof.Proof.LibPlainDot
import Idealize.ShloMosaic.Lib.Pipeline.Value
import Idealize.ShloMosaic.Lib.ValueLayout
import Idealize.ShloMosaic.PureOps.Ideal.Laws

noncomputable section

open scoped BigOperators

namespace Cert.KernelTile

open Idealize.ShloMosaic Idealize.ShloMosaic.ValueIdx Cert.KernelIdeal Cert.KernelIdeal.Gen

/-- The sum over 512 × 512 row pairs of the squared inner product of row r of u with row c of v. -/
def sq (u v : Fin 512 → Fin 64 → ℝ) : ℝ :=
  ∑ r : Fin 512, ∑ c : Fin 512, (∑ k : Fin 64, u r k * v c k) * (∑ k : Fin 64, u r k * v c k)

/-- The tile product contracts the left block's columns with the transposed right block's rows, with no batch axes. -/
private theorem plain : PlainDot.IsPlain dot_S512x64_S64x512_S512x512_1_0_0_1_n_n := ⟨rfl, rfl, rfl, rfl, rfl, rfl⟩

/-- The inner product of row a of u with row b of v. -/
private def gr (u v : Fin 512 → Fin 64 → ℝ) (a b : Fin 512) : ℝ := ∑ k : Fin 64, u a k * v b k

/-- The transposed block at (κ, b) is the block at (b, κ). -/
private theorem transpose_read (r : FVec Ideal S512x64 .f32) (κ : Fin 64) (b : Fin 512) :
    transpose S64x512 [1, 0] r transposes_S512x64_p1_0_S64x512 (ix2 κ b) = r (ix2 b κ) :=
  transpose_apply [1, 0] r transposes_S512x64_p1_0_S64x512 (ix2 κ b) (ix2 b κ) (fun c => match c with
    | ⟨0, _⟩ => rfl
    | ⟨1, _⟩ => rfl)

/-- The product of a real block with the transpose of a real block, at (a, b): the inner product of their rows a, b. -/
private theorem gram_apply (u v : Fin 512 → Fin 64 → ℝ) (l r : FVec Ideal S512x64 .f32)
    (hl : ∀ a k, l (ix2 a k) = ((u a k : ℝ) : EReal)) (hr : ∀ a k, r (ix2 a k) = ((v a k : ℝ) : EReal)) (a b : Fin 512) :
    matmul (F := Ideal) dot_S512x64_S64x512_S512x512_1_0_0_1_n_n (some .fp32) l
        (transpose S64x512 [1, 0] r transposes_S512x64_p1_0_S64x512) (constant (F := Ideal) S512x512 .f32 0x00000000#32) (ix2 a b)
      = ((gr u v a b : ℝ) : EReal) := by
  refine (PlainDot.matmul_zero_plain _ plain _ l _ a b).trans ?_
  unfold gr
  rw [Cert.Gram.coe_sum]
  refine Finset.sum_congr rfl fun κ _ => ?_
  rw [transpose_read, hl, hr, EReal.coe_mul]

/-- The squared tile: the product above, plus the zero splat, times itself. -/
private def tile (l r : FVec Ideal S512x64 .f32) : FVec Ideal S512x512 .f32 :=
  mulf
    (addf (matmul (F := Ideal) dot_S512x64_S64x512_S512x512_1_0_0_1_n_n (some .fp32) l
        (transpose S64x512 [1, 0] r transposes_S512x64_p1_0_S64x512) (constant (F := Ideal) S512x512 .f32 0x00000000#32))
      (broadcast S512x512 (Scalar.ofBits (F := Ideal) .f32 0x00000000#32)))
    (addf (matmul (F := Ideal) dot_S512x64_S64x512_S512x512_1_0_0_1_n_n (some .fp32) l
        (transpose S64x512 [1, 0] r transposes_S512x64_p1_0_S64x512) (constant (F := Ideal) S512x512 .f32 0x00000000#32))
      (broadcast S512x512 (Scalar.ofBits (F := Ideal) .f32 0x00000000#32)))

/-- The squared tile at (a, b) is the square of the inner product of rows a and b. -/
private theorem tile_apply (u v : Fin 512 → Fin 64 → ℝ) (l r : FVec Ideal S512x64 .f32)
    (hl : ∀ a k, l (ix2 a k) = ((u a k : ℝ) : EReal)) (hr : ∀ a k, r (ix2 a k) = ((v a k : ℝ) : EReal)) (a b : Fin 512) :
    tile l r (ix2 a b) = ((gr u v a b * gr u v a b : ℝ) : EReal) := by
  unfold tile
  rw [mulf_apply, addf_apply, broadcast_apply, gram_apply u v l r hl hr a b]
  show (((gr u v a b : ℝ) : EReal) + Ideal.ofBits .f32 0x00000000#32) * (((gr u v a b : ℝ) : EReal) + Ideal.ofBits .f32 0x00000000#32) = _
  rw [Ideal.ofBits_zero_f32, add_zero, EReal.coe_mul]

private theorem pay5_eq (v16 v19 : Vec Ideal S512x64 .f32) : k0_pay5 (F := Ideal) v16 v19 = tile v16 v19 := by
  unfold k0_pay5 k0_pay4 tile
  simp only [shapeCast_self]

private theorem pay6_eq (v10 v19 : Vec Ideal S512x64 .f32) : k0_pay6 (F := Ideal) v10 v19 = tile v10 v19 := by
  unfold k0_pay6 k0_pay4 k0_pay3 tile
  simp only [shapeCast_self]

/-- The sum over lanes then over rows of a 512 × 512 tile, as the body takes it: two one-axis sums with the reshapes between. -/
private def lanes (x : FVec Ideal S512x512 .f32) : FVec Ideal S1x1 .f32 :=
  shapeCast S1x1
    (multiReduction (F := Ideal) .add [0] S1
      (shapeCast S512x1 (multiReduction (F := Ideal) .add [1] S512 x 0x00000000#32 reduces_S512x512_S512 (.inl rfl) rfl)
        shapeCasts_S512_S512x1)
      0x00000000#32 reduces_S512x1_S1 (.inl rfl) rfl)
    shapeCasts_S1_S1x1

/-- The sum over one row's lanes. -/
private theorem rowsum_apply (x : FVec Ideal S512x512 .f32) (a : Fin 512) :
    multiReduction (F := Ideal) .add [1] S512 x 0x00000000#32 reduces_S512x512_S512 (.inl rfl) rfl (ix1 a)
      = ∑ b : Fin 512, x (ix2 a b) := by
  refine (Ideal.multiReduction_add_single x _ reduces_S512x512_S512 (.inl rfl) rfl (ix1 a)).trans ?_
  refine Finset.sum_congr rfl fun b _ => congrArg x ?_
  funext c
  match c with
  | ⟨0, _⟩ => exact Fin.ext rfl
  | ⟨1, _⟩ => exact Fin.ext rfl

/-- The column of row sums at (a, 0) is row a's sum. -/
private theorem col_apply (y : FVec Ideal S512 .f32) (a : Fin 512) (z : Fin 1) :
    shapeCast S512x1 y shapeCasts_S512_S512x1 (ix2 a z) = y (ix1 a) :=
  shapeCast_apply y shapeCasts_S512_S512x1 _ _ (by
    have hz : z.val = 0 := by omega
    rw [Shape.rowMajor_val_two, Shape.rowMajor_val_one]
    show a.val = a.val * 1 + z.val
    omega)

/-- The sum down a 512 × 1 column. -/
private theorem colsum_apply (y : FVec Ideal S512x1 .f32) (z : Fin 1) :
    multiReduction (F := Ideal) .add [0] S1 y 0x00000000#32 reduces_S512x1_S1 (.inl rfl) rfl (ix1 z)
      = ∑ a : Fin 512, y (ix2 a z) := by
  refine (Ideal.multiReduction_add_single y _ reduces_S512x1_S1 (.inl rfl) rfl (ix1 z)).trans ?_
  refine Finset.sum_congr rfl fun a _ => congrArg y ?_
  funext c
  match c with
  | ⟨0, _⟩ => exact Fin.ext rfl
  | ⟨1, _⟩ => exact Fin.ext rfl

/-- The 1 × 1 reshape of a one-element vector reads its element. -/
private theorem one_apply (y : FVec Ideal S1 .f32) (j : S1x1.Idx) :
    shapeCast S1x1 y shapeCasts_S1_S1x1 j = y (ix1 (0 : Fin 1)) :=
  shapeCast_apply y shapeCasts_S1_S1x1 _ _ (by
    have h0 : (j 0).val = 0 := by have h : (j 0).val < 1 := (j 0).isLt; omega
    have h1 : (j 1).val = 0 := by have h : (j 1).val < 1 := (j 1).isLt; omega
    rw [Shape.rowMajor_val_two, Shape.rowMajor_val_one]
    show 0 = (j 0).val * 1 + (j 1).val
    omega)

/-- The double lane sum of a tile of real entries is the real double sum. -/
private theorem lanes_apply (x : FVec Ideal S512x512 .f32) (G : Fin 512 → Fin 512 → ℝ)
    (hx : ∀ a b, x (ix2 a b) = ((G a b : ℝ) : EReal)) (j : S1x1.Idx) :
    lanes x j = ((∑ a : Fin 512, ∑ b : Fin 512, G a b : ℝ) : EReal) := by
  unfold lanes
  rw [one_apply, colsum_apply, Cert.Gram.coe_sum]
  refine Finset.sum_congr rfl fun a _ => ?_
  rw [col_apply, rowsum_apply, Cert.Gram.coe_sum]
  exact Finset.sum_congr rfl fun b _ => hx a b

private theorem pay7_eq (v10 v13 : Vec Ideal S512x64 .f32) : k0_pay7 (F := Ideal) v10 v13 = lanes (tile v10 v13) := by
  unfold k0_pay7 k0_pay3 tile lanes
  simp only [shapeCast_self]

private theorem pay1_eq (x5 x6 : FVec Ideal S512x512 .f32) (x7 : FVec Ideal S1x1 .f32) (v52 : Vec Ideal S1x1 .f32) :
    k0_pay1 (F := Ideal) x5 x6 x7 v52
      = addf v52 (subf (addf x7 (lanes x5)) (mulf (broadcast S1x1 (Scalar.ofBits (F := Ideal) .f32 0x40000000#32)) (lanes x6))) := by
  unfold k0_pay1 lanes
  simp only [shapeCast_self]

theorem pay_tile (fi fj si sj : Fin 512 → Fin 64 → ℝ) (v10 v13 v16 v19 : Vec Ideal S512x64 .f32) (v52 : Vec Ideal S1x1 .f32)
    (h10 : ∀ r k, v10 (ix2 r k) = ((fi r k : ℝ) : EReal)) (h13 : ∀ r k, v13 (ix2 r k) = ((fj r k : ℝ) : EReal))
    (h16 : ∀ r k, v16 (ix2 r k) = ((si r k : ℝ) : EReal)) (h19 : ∀ r k, v19 (ix2 r k) = ((sj r k : ℝ) : EReal)) :
    k0_pay1 (F := Ideal) (k0_pay5 v16 v19) (k0_pay6 v10 v19) (k0_pay7 v10 v13) v52
      = fun _ => v52 (ix2 0 0) + (((sq fi fj + sq si sj) - 2 * sq fi sj : ℝ) : EReal) := by
  rw [pay5_eq, pay6_eq, pay7_eq, pay1_eq]
  funext j
  have hj : j = ix2 0 0 := by
    funext c
    match c with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
  rw [addf_apply, subf_apply, addf_apply, mulf_apply, broadcast_apply,
    lanes_apply _ _ (tile_apply fi fj v10 v13 h10 h13) j, lanes_apply _ _ (tile_apply si sj v16 v19 h16 h19) j,
    lanes_apply _ _ (tile_apply fi sj v10 v19 h10 h19) j]
  show v52 j + ((_ + _) - Ideal.ofBits .f32 0x40000000#32 * _) = _
  rw [Cert.Consts.ofBits_two, ← EReal.coe_add, ← EReal.coe_mul, ← EReal.coe_sub, hj]
  rfl

end Cert.KernelTile

end
-- ==== Proof.KernelAcc.lean ====
/-
  The accumulator across the grid, for argument arrays of real entries.

  Both operands of the kernel are whole 8192 × 64 feature matrices (a [1, 64, 128, 64] argument reshaped to 64 × 8192
  and transposed), resident for the whole grid; grid point t = 16·i + j loads row tiles i and j of each. With real
  entries one point's update is "what was held, plus tile pair (i, j)'s contribution", so after point n the accumulator
  holds the running total of the contributions of points 0 … n, and the result block, written at the last point, the
  total over all 256.
-/
import proofs.«151315_j83365315215382_1_alg».proof.Proof.KernelPieces
import proofs.«151315_j83365315215382_1_alg».proof.Proof.KernelTile
import proofs.«151315_j83365315215382_1_alg».proof.Proof.GramSpec
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ)

/-- The first feature matrix as the region finds it: the first argument reshaped to 64 × 8192 and transposed. -/
theorem V_v1 (c : Dev nD) : (V m c main_v1 : Vec Ideal S8192x64 .f32)
    = transpose S8192x64 [1, 0] (shapeCast S64x8192 (m ((c : Thread nD τ).loc main_arg0)) shapeCasts_S1x64x128x64_S64x8192) transposes_S64x8192_S8192x64_1_0 := by
  show StableHlo.after hostOps0 (fun b => m (c, b)) (Proc.devRef .tc main_v1) = _
  after_results
  rfl

/-- The second feature matrix, from the second argument the same way. -/
theorem V_v3 (c : Dev nD) : (V m c main_v3 : Vec Ideal S8192x64 .f32)
    = transpose S8192x64 [1, 0] (shapeCast S64x8192 (m ((c : Thread nD τ).loc main_arg1)) shapeCasts_S1x64x128x64_S64x8192) transposes_S64x8192_S8192x64_1_0 := by
  show StableHlo.after hostOps0 (fun b => m (c, b)) (Proc.devRef .tc main_v3) = _
  after_results
  rfl

/-- A reshaped and transposed [1, 64, 128, 64] array at (p, k) is the array at (0, k, p / 64, p % 64): row-major
    position k·8192 + p of the 64 × 8192 reshape. -/
theorem feat_apply (x : FVec Ideal S1x64x128x64 .f32) (p : Fin 8192) (k : Fin 64) :
    transpose S8192x64 [1, 0] (shapeCast S64x8192 x shapeCasts_S1x64x128x64_S64x8192) transposes_S64x8192_S8192x64_1_0 (ix2 p k)
      = Cert.Gram.featE x p k := by
  rw [transpose_apply [1, 0] _ transposes_S64x8192_S8192x64_1_0 (ix2 p k) (ix2 k p) (fun b => match b with
    | ⟨0, _⟩ => rfl
    | ⟨1, _⟩ => rfl)]
  unfold Cert.Gram.featE
  refine shapeCast_apply x shapeCasts_S1x64x128x64_S64x8192 (ix2 k p) _ ?_
  rewrite [Shape.rowMajor_val_four, Shape.rowMajor_val_two]
  have hk := k.isLt; have hp := p.isLt
  show ((0 * 64 + k.val) * 128 + p.val / 64) * 64 + p.val % 64 = k.val * 8192 + p.val
  omega

/-- An entry that is a real number is its real value read back as an extended real. -/
theorem featE_real (x : FVec Ideal S1x64x128x64 .f32) (hx : ∀ i, ∃ r : ℝ, x i = (r : EReal)) (p : Fin 8192) (k : Fin 64) :
    Cert.Gram.featE x p k = ((Cert.Gram.featR x p k : ℝ) : EReal) := by
  unfold Cert.Gram.featR Cert.Gram.featE
  obtain ⟨r, hr⟩ := hx (ix4 (0 : Fin 1) k (⟨p.val / 64, by have := p.isLt; omega⟩ : Fin 128) (⟨p.val % 64, by omega⟩ : Fin 64))
  rw [hr, EReal.toReal_coe]

/-- The block of the first operand at a grid point, at its literal type. -/
abbrev X0 (c : Dev nD) (t : Fin cfg0.N) : Vec Ideal S8192x64 .f32 := iblk m c 0 t
/-- The block of the second operand. -/
abbrev X1 (c : Dev nD) (t : Fin cfg0.N) : Vec Ideal S8192x64 .f32 := iblk m c 1 t

/-- Each operand's block is its whole feature matrix at every point: the block index never moves from (0, 0). -/
theorem X0_eq (c : Dev nD) (t : Fin cfg0.N) : X0 m c t = V m c main_v1 := by
  funext j
  unfold X0 iblk
  rw [View.read_apply]
  show V m c main_v1 _ = V m c main_v1 j
  congr 1
  funext a
  apply Fin.ext
  match a with
  | ⟨0, _⟩ => show win0_0.index t 0 * 8192 + 1 * (j 0).val = (j 0).val; rw [show win0_0.index t 0 = 0 from rfl]; omega
  | ⟨1, _⟩ => show win0_0.index t 1 * 64 + 1 * (j 1).val = (j 1).val; rw [show win0_0.index t 1 = 0 from rfl]; omega

theorem X1_eq (c : Dev nD) (t : Fin cfg0.N) : X1 m c t = V m c main_v3 := by
  funext j
  unfold X1 iblk
  rw [View.read_apply]
  show V m c main_v3 _ = V m c main_v3 j
  congr 1
  funext a
  apply Fin.ext
  match a with
  | ⟨0, _⟩ => show win0_1.index t 0 * 8192 + 1 * (j 0).val = (j 0).val; rw [show win0_1.index t 0 = 0 from rfl]; omega
  | ⟨1, _⟩ => show win0_1.index t 1 * 64 + 1 * (j 1).val = (j 1).val; rw [show win0_1.index t 1 = 0 from rfl]; omega

/-- The two feature matrices over the reals. -/
abbrev fR (c : Dev nD) : Fin 8192 → Fin 64 → ℝ := Cert.Gram.featR (m ((c : Thread nD τ).loc main_arg0))
abbrev sR (c : Dev nD) : Fin 8192 → Fin 64 → ℝ := Cert.Gram.featR (m ((c : Thread nD τ).loc main_arg1))

theorem X0_real (hx0 : ∀ c : Dev nD, ∀ i, ∃ r : ℝ, m ((c : Thread nD τ).loc main_arg0) i = (r : EReal)) (c : Dev nD) (t : Fin cfg0.N)
    (p : Fin 8192) (k : Fin 64) : X0 m c t (ix2 p k) = ((fR m c p k : ℝ) : EReal) := by
  rw [X0_eq, V_v1, feat_apply, featE_real _ (hx0 c)]

theorem X1_real (hx1 : ∀ c : Dev nD, ∀ i, ∃ r : ℝ, m ((c : Thread nD τ).loc main_arg1) i = (r : EReal)) (c : Dev nD) (t : Fin cfg0.N)
    (p : Fin 8192) (k : Fin 64) : X1 m c t (ix2 p k) = ((sR m c p k : ℝ) : EReal) := by
  rw [X1_eq, V_v3, feat_apply, featE_real _ (hx1 c)]

/-- The rows a point loads by its first coordinate are rows 512·i + r of the matrix … -/
theorem rowsI_apply (i : grid0.Coords) (X : Vec Ideal S8192x64 .f32) (r : Fin 512) (k : Fin 64) :
    rowsI i X (ix2 r k) = X (ix2 (Cert.Gram.row (i 0) r) k) := by
  show X _ = X _
  congr 1
  funext a
  apply Fin.ext
  match a with
  | ⟨0, _⟩ => show k0_off1 i 0 + 1 * r.val = 512 * (i 0).val + r.val; rw [k0_off1_eq]; simp
  | ⟨1, _⟩ => show k0_off1 i 1 + 1 * k.val = k.val; rw [k0_off1_eq]; simp

/-- … and by its second coordinate rows 512·j + r. -/
theorem rowsJ_apply (i : grid0.Coords) (X : Vec Ideal S8192x64 .f32) (r : Fin 512) (k : Fin 64) :
    rowsJ i X (ix2 r k) = X (ix2 (Cert.Gram.row (i 1) r) k) := by
  show X _ = X _
  congr 1
  funext a
  apply Fin.ext
  match a with
  | ⟨0, _⟩ => show k0_off2 i 0 + 1 * r.val = 512 * (i 1).val + r.val; rw [k0_off2_eq]; simp
  | ⟨1, _⟩ => show k0_off2 i 1 + 1 * k.val = k.val; rw [k0_off2_eq]; simp

/-- One point's update over matrices of real entries: the held value plus tile pair (i, j)'s contribution. -/
theorem step_real (i : grid0.Coords) (Y0 Y1 : Vec Ideal S8192x64 .f32) (f s : Fin 8192 → Fin 64 → ℝ)
    (h0 : ∀ p k, Y0 (ix2 p k) = ((f p k : ℝ) : EReal)) (h1 : ∀ p k, Y1 (ix2 p k) = ((s p k : ℝ) : EReal)) (a : Vec Ideal S1x1 .f32) :
    step i Y0 Y1 a = fun _ => a (ix2 0 0) + ((Cert.Gram.tileR f s (i 0) (i 1) : ℝ) : EReal) :=
  Cert.KernelTile.pay_tile (fun r k => f (Cert.Gram.row (i 0) r) k) (fun r k => f (Cert.Gram.row (i 1) r) k)
    (fun r k => s (Cert.Gram.row (i 0) r) k) (fun r k => s (Cert.Gram.row (i 1) r) k)
    (rowsI i Y0) (rowsJ i Y0) (rowsI i Y1) (rowsJ i Y1) a
    (fun r k => by rw [rowsI_apply, h0]) (fun r k => by rw [rowsJ_apply, h0])
    (fun r k => by rw [rowsI_apply, h1]) (fun r k => by rw [rowsJ_apply, h1])

/-- Grid point t is tile pair (t / 16, t % 16): the grid is 16 × 16, visited row by row. -/
theorem coords0 (t : Fin cfg0.N) : grid0.coords t 0 = (⟨t.val / 16 % 16, Nat.mod_lt _ (by decide)⟩ : Fin 16) :=
  Fin.ext (by show t.val / grid0.stride 0 % 16 = _; rw [show grid0.stride 0 = 16 from by decide])

theorem coords1 (t : Fin cfg0.N) : grid0.coords t 1 = (⟨t.val % 16, Nat.mod_lt _ (by decide)⟩ : Fin 16) :=
  Fin.ext (by show t.val / grid0.stride 1 % 16 = t.val % 16; rw [show grid0.stride 1 = 1 from by decide, Nat.div_one])

theorem tile_point (f s : Fin 8192 → Fin 64 → ℝ) (t : Fin cfg0.N) :
    Cert.Gram.tileR f s (grid0.coords t 0) (grid0.coords t 1) = Cert.Gram.pointR f s t.val := by
  rw [coords0, coords1]; rfl

/-- The value the first point stores before it accumulates is zero. -/
theorem pay2_zero : (k0_pay2 (F := Ideal)) (ix2 0 0) = 0 := by
  unfold k0_pay2
  rw [shapeCast_self]
  exact Ideal.ofBits_zero_f32

section Acc

variable (hx0 : ∀ c : Dev nD, ∀ i, ∃ r : ℝ, m ((c : Thread nD τ).loc main_arg0) i = (r : EReal))
variable (hx1 : ∀ c : Dev nD, ∀ i, ∃ r : ℝ, m ((c : Thread nD τ).loc main_arg1) i = (r : EReal))
include hx0 hx1

/-- At any point, the update of a held value `a`: `a` plus that point's contribution. -/
theorem step_point (c : Dev nD) (t : Fin cfg0.N) (a : Vec Ideal S1x1 .f32) :
    step (grid0.coords t) (X0 m c t) (X1 m c t) a
      = fun _ => a (ix2 0 0) + ((Cert.Gram.pointR (fR m c) (sR m c) t.val : ℝ) : EReal) := by
  rw [step_real (grid0.coords t) (X0 m c t) (X1 m c t) (fR m c) (sR m c) (X0_real m hx0 c t) (X1_real m hx1 c t) a, tile_point]

/-- THE ACCUMULATOR after point n holds the running total of the contributions of points 0 … n — by induction on the
    point: the first point adds its contribution to zero, each later one to what the point before left. -/
theorem acc_eq (c : Dev nD) : ∀ (n : ℕ) (hn : n < cfg0.N),
    (outsAt0 m c n hn).2 = fun _ => ((Cert.Gram.accR (fR m c) (sR m c) n : ℝ) : EReal)
  | 0, hn => by
    rw [outsAt0_A m c ⟨0, hn⟩ rfl (by dsimp only; omega)]
    dsimp only
    refine (sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) _ _ (X0 m c ⟨0, hn⟩) (X1 m c ⟨0, hn⟩)).trans ?_
    rw [step_point m hx0 hx1 c ⟨0, hn⟩ (k0_pay2 (F := Ideal)), pay2_zero, zero_add]
    funext _
    simp [Cert.Gram.accR]
  | n + 1, hn => by
    have hN : cfg0.N = 256 := N_0
    have h0 : ¬(⟨n + 1, hn⟩ : Fin cfg0.N).val % 256 = 0 := by dsimp only; omega
    have ih := acc_eq c n (Nat.lt_of_succ_lt hn)
    have hsum : Cert.Gram.accR (fR m c) (sR m c) (n + 1) = Cert.Gram.accR (fR m c) (sR m c) n + Cert.Gram.pointR (fR m c) (sR m c) (n + 1) := by
      unfold Cert.Gram.accR; rw [Finset.sum_range_succ]
    by_cases h1 : (⟨n + 1, hn⟩ : Fin cfg0.N).val % 256 = 255
    · rw [outsAt0_C m c ⟨n + 1, hn⟩ h0 h1]
      dsimp only
      refine (sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (X0 m c ⟨n + 1, hn⟩) (X1 m c ⟨n + 1, hn⟩) (outsAt0 m c n (Nat.lt_of_succ_lt hn)).2).trans ?_
      rw [step_point m hx0 hx1 c ⟨n + 1, hn⟩, ih, hsum, EReal.coe_add]
    · rw [outsAt0_B m c ⟨n + 1, hn⟩ h0 h1]
      dsimp only
      refine (sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (X0 m c ⟨n + 1, hn⟩) (X1 m c ⟨n + 1, hn⟩) (outsAt0 m c n (Nat.lt_of_succ_lt hn)).2).trans ?_
      rw [step_point m hx0 hx1 c ⟨n + 1, hn⟩, ih, hsum, EReal.coe_add]

/-- THE RESULT BLOCK: the last point copies the accumulator it has just updated, so it holds the total over all 256 points. -/
theorem out_last (c : Dev nD) (hn : 255 < cfg0.N) :
    (outsAt0 m c 255 hn).1 = fun _ => ((Cert.Gram.accR (fR m c) (sR m c) 255 : ℝ) : EReal) := by
  have h0 : ¬(⟨255, hn⟩ : Fin cfg0.N).val % 256 = 0 := by dsimp only; omega
  have h1 : (⟨255, hn⟩ : Fin cfg0.N).val % 256 = 255 := by dsimp only
  have hsum : Cert.Gram.accR (fR m c) (sR m c) 255 = Cert.Gram.accR (fR m c) (sR m c) 254 + Cert.Gram.pointR (fR m c) (sR m c) 255 := by
    unfold Cert.Gram.accR; rw [Finset.sum_range_succ]
  rw [outsAt0_C m c ⟨255, hn⟩ h0 h1]
  dsimp only
  refine (out_C c (grid0.coords ⟨255, hn⟩) (ms0_0 ⟨255, hn⟩) (hs0_0 ⟨255, hn⟩) (ms0_1 ⟨255, hn⟩) (hs0_1 ⟨255, hn⟩) (ms0_2 ⟨255, hn⟩) (hs0_2 ⟨255, hn⟩) scM0_0 (Memref.isWhole_whole _) _ _ (X0 m c ⟨255, hn⟩) (X1 m c ⟨255, hn⟩) (outsAt0 m c 254 (Nat.lt_of_succ_lt hn)).2).trans ?_
  rw [step_point m hx0 hx1 c ⟨255, hn⟩, acc_eq m hx0 hx1 c 254 (Nat.lt_of_succ_lt hn), hsum, EReal.coe_add]

end Acc

end Cert.KernelIdeal.KV

end
-- ==== Proof.KernelRun.lean ====
/-
  The kernel's run, for argument arrays of real entries.

  The result block is written back once, after the last grid point, when it holds the total of all 256 tile pairs'
  contributions; its 1 × 1 array therefore ends at that total. The host then reads it as a scalar and multiplies it by
  2^-38 = 1 / (8192 · 8192 · 4096).
-/
import proofs.«151315_j83365315215382_1_alg».proof.Proof.KernelAcc
import proofs.«151315_j83365315215382_1_alg».proof.Proof.Consts
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ) (ρ : Dev nD → PrngReg)

/-- The last grid point. -/
abbrev tLast : Fin cfg0.N := ⟨255, by rw [show cfg0.N = 256 from N_0]; decide⟩

/-- The total of all 256 contributions. -/
abbrev totalR (c : Dev nD) : ℝ := Cert.Gram.accR (fR m c) (sR m c) 255

/-- The kernel region's 1 × 1 result array after the run: the total. -/
abbrev resultBlk (c : Dev nD) : Buf (Elt Ideal) ((c : Thread nD τ).loc main_v4) := fun _ => ((totalR m c : ℝ) : EReal)

section Run

variable (hx0 : ∀ c : Dev nD, ∀ i, ∃ r : ℝ, m ((c : Thread nD τ).loc main_arg0) i = (r : EReal))
variable (hx1 : ∀ c : Dev nD, ∀ i, ∃ r : ℝ, m ((c : Thread nD τ).loc main_arg1) i = (r : EReal))
include hx0 hx1

/-- The result block at the last point, stated at a symbolic point whose index is 255. -/
theorem out_last_at (c : Dev nD) (t : Fin cfg0.N) (h : t.val = 255) :
    (outsAt0 m c t.val t.isLt).1 = fun _ => ((totalR m c : ℝ) : EReal) := by
  obtain ⟨n, hn⟩ := t
  dsimp only at h
  subst h
  exact out_last m hx0 hx1 c hn

/-- The one write-back, at the last point, writes the total: the result block there is the accumulator's copy, and a
    constant read through any block is that constant. -/
theorem flushed_eq (c : Dev nD) (t : Fin cfg0.N) (hf : (cfg0.win 2).flush t = true) :
    (dats m 0 c).flushed 2 t = ((cfg0.win 2).blk t).view.read (Elt Ideal) (resultBlk m c) := by
  have hN : cfg0.N = 256 := N_0
  have h255 : t.val = 255 := by have := (flush0_2 t).mp hf; have := t.isLt; omega
  have e := out_last_at m hx0 hx1 c t h255
  show (cfg0.win 2).cut (grid0.coords t) ((dats m 0 c).after 2 t) = _
  rw [after0_2, e]
  funext y
  rw [View.read_apply]
  rfl

/-- So the result array ends holding the total: its one element lies in the block the last point writes back. -/
theorem final_out (c : Dev nD) : (dats m 0 c).arrAt 2 cfg0.N = resultBlk m c :=
  (dats m 0 c).arrAt_eq_of_cover 2 (resultBlk m c) (flushed_eq m hx0 hx1 c) fun i =>
    ⟨tLast, (flush0_2 tLast).mpr rfl, by
      show i ∈ ((View.whole main_v4).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The host's last two operations: the 1 × 1 result read as a scalar and multiplied by 2^-38. -/
theorem tail_eq (c : Dev nD) :
    Pipeline.afterTail₀ cfgs (dats m) 0 (V0 m) [hostOps1] c main_v6
      = fun _ => ((totalR m c * (1 / 274877906944) : ℝ) : EReal) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4)
      = resultBlk m c :=
    (Pipeline.withArrays_arr spec0 launch0.win.arr_inj c _ _ 2).trans (final_out m hx0 hx1 c)
  rw [hw]
  funext j
  show ((totalR m c : ℝ) : EReal) * Ideal.ofBits .f32 0x2C800000#32 = _
  rw [Cert.Consts.ofBits_inv, ← EReal.coe_mul]

/-- THE KERNEL'S RUN, for arguments of real entries: it terminates with the result at the total times 2^-38 and the
    arguments unchanged. -/
theorem run : θ_run defs (onTc (τ := τ) (main (F := Ideal))) ⟨m, fun _ => 0, ρ⟩ fun r => ∀ c : Dev nD,
      r.2.mem ((c : Thread nD τ).loc main_v6) = (fun _ => ((totalR m c * (1 / 274877906944) : ℝ) : EReal))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v6 (Pipeline.mem_restRefs_of main_v6 (by decide) (by decide))).trans (tail_eq m hx0 hx1 c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Run

end Cert.KernelIdeal.KV

end
-- ==== Proof.lean ====
/-
  The degree-2 polynomial-kernel loss: a tiled accumulation against the whole-matrix formula.

  Both programs read two [1, 64, 128, 64] arrays as 8192 × 64 feature matrices f and s (entry (p, k) is the array at
  (0, k, p / 64, p % 64)) and compute

      ( ∑ over row pairs (p, q) of  ⟨f p, f q⟩² + ⟨s p, s q⟩² − 2·⟨f p, s q⟩² ) / (8192 · 8192 · 4096).

  The reference forms the three 8192 × 8192 matrices of inner products, squares them, combines them entry by entry,
  sums over both axes and divides by 8192, by 8192 and by 4096. The kernel walks a 16 × 16 grid of tile pairs: at
  point (i, j) it forms the three 512 × 512 tiles for row tiles i and j, sums each tile's squares, and adds
  sum₁ + sum₂ − 2·sum₃ to a 1 × 1 accumulator (zeroed at the first point, copied out after the last); the host multiplies
  the result by 2^-38. Under the precondition every entry is a real number, so every sum is a finite sum of reals:
  the 256 tile contributions add up to the sum over all row pairs (each row p is row r of exactly one tile,
  p = 512·i + r), and multiplying by 2^-38 is dividing by 2^13, 2^13 and 2^12.

  The three frames are the generated ones (the reference's is its run with the result dropped); the ideal pass rewrote
  nothing, so the kernel's idealization is the kernel read at the extended reals.
-/
import proofs.«151315_j83365315215382_1_alg».proof.Defs
import proofs.«151315_j83365315215382_1_alg».proof.Proof.Gen.Kernel
import proofs.«151315_j83365315215382_1_alg».proof.Proof.Gen.Kernel.Skeleton
import proofs.«151315_j83365315215382_1_alg».proof.Proof.Gen.Kernel.Launch
import proofs.«151315_j83365315215382_1_alg».proof.Proof.Gen.Kernel.Points
import proofs.«151315_j83365315215382_1_alg».proof.Proof.Gen.Kernel.Frame
import proofs.«151315_j83365315215382_1_alg».proof.Proof.Gen.KernelIdeal
import proofs.«151315_j83365315215382_1_alg».proof.Proof.Gen.KernelIdeal.Skeleton
import proofs.«151315_j83365315215382_1_alg».proof.Proof.Gen.KernelIdeal.Launch
import proofs.«151315_j83365315215382_1_alg».proof.Proof.Gen.KernelIdeal.Points
import proofs.«151315_j83365315215382_1_alg».proof.Proof.Gen.KernelIdeal.Frame
import proofs.«151315_j83365315215382_1_alg».proof.Proof.Gen.ReferenceIdeal
import proofs.«151315_j83365315215382_1_alg».proof.Proof.Gen.Pre_finite_inputs
import proofs.«151315_j83365315215382_1_alg».proof.Proof.Gen.ReferenceIdeal.Run
import proofs.«151315_j83365315215382_1_alg».proof.Proof.Gen.ReferenceIdeal.Read
import proofs.«151315_j83365315215382_1_alg».proof.Proof.GramAlgebra
import proofs.«151315_j83365315215382_1_alg».proof.Proof.Finite
import proofs.«151315_j83365315215382_1_alg».proof.Proof.RefValue
import proofs.«151315_j83365315215382_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Multiplying by 2^-38 is dividing by 8192, by 8192 and by 4096. -/
theorem scale (x : ℝ) : x * (1 / 274877906944) = x / 8192 / 8192 / 4096 := by
  rw [div_div, div_div, mul_one_div]; norm_num

/-- From arguments that agree and are finite, both programs end at the loss: the kernel at the total of its 256 tile
    contributions times 2^-38, the reference at the sum over all row pairs divided by 8192, 8192 and 4096. -/
theorem algebraic : Cert.algebraic_KernelIdeal_ReferenceIdeal := by
  intro m ρ m' ρ' hpre hagree
  have hx0 : ∀ c : Dev Cert.KernelIdeal.nD, ∀ i, ∃ r : ℝ, m ((c.tc : Thread Cert.KernelIdeal.nD Cert.KernelIdeal.τ).loc Cert.KernelIdeal.main_arg0) i = (r : EReal) :=
    fun c => (Cert.Finite.real_of_pre _ _ (hpre c)).1
  have hx1 : ∀ c : Dev Cert.KernelIdeal.nD, ∀ i, ∃ r : ℝ, m ((c.tc : Thread Cert.KernelIdeal.nD Cert.KernelIdeal.τ).loc Cert.KernelIdeal.main_arg1) i = (r : EReal) :=
    fun c => (Cert.Finite.real_of_pre _ _ (hpre c)).2
  refine ⟨fun c _ => ((Cert.KernelIdeal.KV.totalR m c * (1 / 274877906944) : ℝ) : EReal), Cert.KernelIdeal.KV.run m ρ hx0 hx1, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v26_eq _ _).trans ((Cert.RefValue.ref_value _ _ (hx0 c) (hx1 c)).trans ?_)
  funext _
  show ((_ : ℝ) : EReal) = ((Cert.KernelIdeal.KV.totalR m c * (1 / 274877906944) : ℝ) : EReal)
  unfold Cert.KernelIdeal.KV.totalR
  rw [scale, Cert.Gram.accR_last]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
